-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S2048x4 : Shape := ⟨2, ![2048, 4]⟩
abbrev S2048 : Shape := ⟨1, ![2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S2048x4 : S_.BroadcastsInDim S2048x4 (![] : Fin 0 → Fin S2048x4.rank)
  reducesTo_S2048x4_S_d0_1 : S2048x4.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S8x4096x2048 .f32) (main_arg1 : FVec F S2048x4 .f32) (main_arg2 : FVec F S2048 .f32) (main_arg3 : FVec F S2048 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S2048x4 .f32 := Host.absf main_arg1
  let main_cst_0 : FVec F S_ .f32 := constant S_ .f32 0x7F800000#32
  let main_v5 : FVec F S2048x4 .f32 := broadcastInDim S2048x4 ![] bcast_S_S2048x4 main_cst_0
  let main_v6 : IVec S2048x4 1 := cmpf .olt main_v4 main_v5
  let main_c_1 : IVec S_ 1 := constantI S_ 1 1#1
  let main_v7 : IVec S_ 1 := (fun x v => Host.reduce IntOp.andi x v reducesTo_S2048x4_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S8x4096x2048 : Shape := ⟨3, ![8, 4096, 2048]⟩
abbrev S2048x4 : Shape := ⟨2, ![2048, 4]⟩
abbrev S2048 : Shape := ⟨1, ![2048]⟩
abbrev S1x2048 : Shape := ⟨2, ![1, 2048]⟩
abbrev S1x512x2048 : Shape := ⟨3, ![1, 512, 2048]⟩
abbrev S8x2048 : Shape := ⟨2, ![8, 2048]⟩
abbrev S512x2048 : Shape := ⟨2, ![512, 2048]⟩
abbrev S512 : Shape := ⟨1, ![512]⟩
abbrev S512x1 : Shape := ⟨2, ![512, 1]⟩
abbrev S3x2048 : Shape := ⟨2, ![3, 2048]⟩
abbrev S515x2048 : Shape := ⟨2, ![515, 2048]⟩
abbrev S2048x1 : Shape := ⟨2, ![2048, 1]⟩

abbrev nBuf : Space → Nat
  | .hbm => 7
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S2048x4, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S8x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S2048x4, .f32⟩
  | .local _ .vmem, ⟨3, _⟩ => ⟨S1x2048, .f32⟩
  | .local _ .vmem, ⟨4, _⟩ => ⟨S1x2048, .f32⟩
  | .local _ .vmem, ⟨5, _⟩ => ⟨S1x512x2048, .f32⟩
  | .local _ .vmem, ⟨6, _⟩ => ⟨S1x512x2048, .f32⟩
  | .local _ .vmem, ⟨7, _⟩ => ⟨S8x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2048_S1x2048 : S2048.ShapeCasts S1x2048
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S8x2048_S3x2048_5_0 : ∀ a, (![5, 0] : Fin 2 → Nat) a + S3x2048.size a ≤ S8x2048.size a
  h_S3x2048 : 0 < S3x2048.numel
  concatenates_S3x2048_S512x2048_S515x2048_d0 : Shape.Concatenates [S3x2048, S512x2048] S515x2048 0
  inb_S2048x4_S2048x1_0_0 : ∀ a, (![0, 0] : Fin 2 → Nat) a + S2048x1.size a ≤ S2048x4.size a
  h_S2048x1 : 0 < S2048x1.numel
  shapeCasts_S2048x1_S2048 : S2048x1.ShapeCasts S2048
  slices_S515x2048_o0_0_S512x2048 : S515x2048.Slices ![0, 0] S512x2048
  inb_S2048x4_S2048x1_0_1 : ∀ a, (![0, 1] : Fin 2 → Nat) a + S2048x1.size a ≤ S2048x4.size a
  slices_S515x2048_o1_0_S512x2048 : S515x2048.Slices ![1, 0] S512x2048
  inb_S2048x4_S2048x1_0_2 : ∀ a, (![0, 2] : Fin 2 → Nat) a + S2048x1.size a ≤ S2048x4.size a
  slices_S515x2048_o2_0_S512x2048 : S515x2048.Slices ![2, 0] S512x2048
  inb_S2048x4_S2048x1_0_3 : ∀ a, (![0, 3] : Fin 2 → Nat) a + S2048x1.size a ≤ S2048x4.size a
  slices_S515x2048_o3_0_S512x2048 : S515x2048.Slices ![3, 0] S512x2048
  shapeCasts_S512x2048_S1x512x2048 : S512x2048.ShapeCasts S1x512x2048
  slices_S512x2048_o504_0_S8x2048 : S512x2048.Slices ![504, 0] S8x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x4096x2048.size a
  hwx0_0 : ∀ i : grid0.Coords, EltTy.bits .f32 = 32 ∨ (Rect.block (s := S8x4096x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4.size a ≤ S2048x4.size a
  hwx0_1 : ∀ i : grid0.Coords, EltTy.bits .f32 = 32 ∨ (Rect.block (s := S2048x4) S2048x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x4096x2048.size a
  hwx0_4 : ∀ i : grid0.Coords, EltTy.bits .f32 = 32 ∨ (Rect.block (s := S8x4096x2048) S1x512x2048.size (cc0_transform_4 i) (hinb0_4 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S2048x4 : Shape := ⟨2, ![2048, 4]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4099x2048 : Shape := ⟨3, ![8, 4099, 2048]⟩
abbrev S2048x1 : Shape := ⟨2, ![2048, 1]⟩

abbrev nBuf : Space → Nat
  | .hbm => 87
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048x4, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S8x4096x2048, .f32⟩
  | .hbm, ⟨11, _⟩ => ⟨S8x4096x2048, .f32⟩
  | .hbm, ⟨12, _⟩ => ⟨S8x4096x2048, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x2048, .f32⟩
  | .hbm, ⟨20, _⟩ => ⟨S8x4096x2048, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x2048, .f32⟩
  | .hbm, ⟨26, _⟩ => ⟨S8x4096x2048, .f32⟩
  | .hbm, ⟨27, _⟩ => ⟨S1x1x2048, .f32⟩
  | .hbm, ⟨28, _⟩ => ⟨S8x4096x2048, .f32⟩
  | .hbm, ⟨29, _⟩ => ⟨S8x4096x2048, .f32⟩
  | .hbm, ⟨30, _⟩ => ⟨S1x1x2048, .f32⟩
  | .hbm, ⟨31, _⟩ => ⟨S8x4096x2048, .f32⟩
  | .hbm, ⟨32, _⟩ => ⟨S8x4096x2048, .f32⟩
  | .hbm, ⟨33, _⟩ => ⟨S_, .i32⟩
  | .hbm, ⟨34, _⟩ => ⟨S_, .f32⟩
  | .hbm, ⟨35, _⟩ => ⟨S8x4099x2048, .f32⟩
  | .hbm, ⟨36, _⟩ => ⟨S_, .f32⟩
  | .hbm, ⟨37, _⟩ => ⟨S8x4096x2048, .f32⟩
  | .hbm, ⟨38, _⟩ => ⟨S2048x1, .f32⟩
  | .hbm, ⟨39, _⟩ => ⟨S2048, .f32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S8x4096x2048, .f32⟩
  | .hbm, ⟨44, _⟩ => ⟨S1x1x2048, .f32⟩
  | .hbm, ⟨45, _⟩ => ⟨S8x4096x2048, .f32⟩
  | .hbm, ⟨46, _⟩ => ⟨S8x4096x2048, .f32⟩
  | .hbm, ⟨47, _⟩ => ⟨S8x4096x2048, .f32⟩
  | .hbm, ⟨48, _⟩ => ⟨S2048x1, .f32⟩
  | .hbm, ⟨49, _⟩ => ⟨S2048, .f32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S8x4096x2048, .f32⟩
  | .hbm, ⟨54, _⟩ => ⟨S1x1x2048, .f32⟩
  | .hbm, ⟨55, _⟩ => ⟨S8x4096x2048, .f32⟩
  | .hbm, ⟨56, _⟩ => ⟨S8x4096x2048, .f32⟩
  | .hbm, ⟨57, _⟩ => ⟨S8x4096x2048, .f32⟩
  | .hbm, ⟨58, _⟩ => ⟨S2048x1, .f32⟩
  | .hbm, ⟨59, _⟩ => ⟨S2048, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S8x4096x2048, .f32⟩
  | .hbm, ⟨64, _⟩ => ⟨S1x1x2048, .f32⟩
  | .hbm, ⟨65, _⟩ => ⟨S8x4096x2048, .f32⟩
  | .hbm, ⟨66, _⟩ => ⟨S8x4096x2048, .f32⟩
  | .hbm, ⟨67, _⟩ => ⟨S8x4096x2048, .f32⟩
  | .hbm, ⟨68, _⟩ => ⟨S2048x1, .f32⟩
  | .hbm, ⟨69, _⟩ => ⟨S2048, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S8x4096x2048, .f32⟩
  | .hbm, ⟨74, _⟩ => ⟨S1x1x2048, .f32⟩
  | .hbm, ⟨75, _⟩ => ⟨S8x4096x2048, .f32⟩
  | .hbm, ⟨76, _⟩ => ⟨S8x4096x2048, .f32⟩
  | .hbm, ⟨77, _⟩ => ⟨S8x4096x2048, .f32⟩
  | .hbm, ⟨78, _⟩ => ⟨S8x4096x2048, .f32⟩
  | .hbm, ⟨79, _⟩ => ⟨S8x4096x2048, .f32⟩
  | .hbm, ⟨80, _⟩ => ⟨S_, .f32⟩
  | .hbm, ⟨81, _⟩ => ⟨S8x4096x2048, .f32⟩
  | .hbm, ⟨82, _⟩ => ⟨S8x4096x2048, .f32⟩
  | .hbm, ⟨83, _⟩ => ⟨S_, .f32⟩
  | .hbm, ⟨84, _⟩ => ⟨S8x4096x2048, .f32⟩
  | .hbm, ⟨85, _⟩ => ⟨S8x4096x2048, .f32⟩
  | .hbm, ⟨86, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_call0_v0 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_c_6 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_8 : Ref sig .tc := ⟨.hbm, 50, rfl⟩
abbrev main_c_9 : Ref sig .tc := ⟨.hbm, 51, rfl⟩
abbrev main_c_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_11 : Ref sig .tc := ⟨.hbm, 60, rfl⟩
abbrev main_c_12 : Ref sig .tc := ⟨.hbm, 61, rfl⟩
abbrev main_c_13 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_14 : Ref sig .tc := ⟨.hbm, 70, rfl⟩
abbrev main_c_15 : Ref sig .tc := ⟨.hbm, 71, rfl⟩
abbrev main_c_16 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩
abbrev main_cst_18 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]

class Facts₀ : Prop where
  reducesTo_S8x4096x2048_S8x4096_d2 : S8x4096x2048.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x2048_0_1_2 : S8x4096x1.BroadcastsInDim S8x4096x2048 (![0, 1, 2] : Fin 3 → Fin S8x4096x2048.rank)
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  pads_S8x4096x2048_S8x4099x2048_000_300_000 : S8x4096x2048.Pads (![0, 3, 0] : Fin 3 → Nat) ![0, 0, 0] ![0, 0, 0] S8x4099x2048
  bcast_S_S8x4096x2048 : S_.BroadcastsInDim S8x4096x2048 (![] : Fin 0 → Fin S8x4096x2048.rank)
  slices_S2048x4_S2048x1_0_0 : S2048x4.Slices ![0, 0] S2048x1
  shapeCasts_S2048x1_S2048 : S2048x1.ShapeCasts S2048
  sliceFits_S8x4099x2048_S8x4096x2048 : S8x4099x2048.Slices (fun _ => 0) S8x4096x2048
  slices_S2048x4_S2048x1_0_1 : S2048x4.Slices ![0, 1] S2048x1
  slices_S2048x4_S2048x1_0_2 : S2048x4.Slices ![0, 2] S2048x1
  slices_S2048x4_S2048x1_0_3 : S2048x4.Slices ![0, 3] S2048x1

variable [Facts₀]

class Facts : Prop extends Facts₀ where

variable [Facts]
-- ==== Proof.Spec.lean ====
/-
  The function both programs compute, index by index, on the extended reals.

  For an input x of shape [8, 4096, 2048] (batch, time, channel), a tap table w of shape
  [2048, 4] and two channel vectors gamma, beta of length 2048:

    * every row x[b, r, :] is normalised over the channel axis: with mean mu = (sum x) / 2048 and
      variance v = (sum (x - mu)^2) / 2048, the normalised row is
      (x - mu) * rsqrt (v + eps) * gamma + beta;
    * along the time axis the normalised rows are preceded by three rows of zeros, and the causal
      depthwise convolution with four taps at (b, r, d) adds up w[d, j] times padded row r + j,
      j = 0, 1, 2, 3, in that order;
    * the result is y * logistic y.

  Padded row q is the zero row for q < 3 and normalised row q - 3 otherwise; it is written here
  with a natural number q so that a block of 512 rows and the whole array index it alike.
-/
import Idealize.ShloMosaic.PureOps.Ideal
import Idealize.ShloMosaic.Lib.ValueIdx

noncomputable section

namespace Cert.ShortConv

open Idealize.ShloMosaic Idealize.ShloMosaic.ValueIdx
open scoped BigOperators

/-- The shapes of the input, of the tap table and of a channel vector. -/
abbrev SX : Shape := ⟨3, ![8, 4096, 2048]⟩
abbrev SW : Shape := ⟨2, ![2048, 4]⟩
abbrev SV : Shape := ⟨1, ![2048]⟩

/-- The number of channels, 2048, and the epsilon f32(1e-5), as the float words both programs print
    (the same words on both sides: their values are never needed). -/
abbrev chans : EReal := Ideal.ofBits .f32 0x45000000#32
abbrev eps : EReal := Ideal.ofBits .f32 0x3727C5AC#32

/-- The mean of a row of 2048 channels. -/
def rowMean (row : Fin 2048 → EReal) : EReal := Ideal.div (∑ k : Fin 2048, row k) chans

/-- The variance of a row: the mean of the squared deviations. -/
def rowVar (row : Fin 2048 → EReal) : EReal :=
  Ideal.div (∑ k : Fin 2048, (row k - rowMean row) * (row k - rowMean row)) chans

/-- Channel d of the normalised row, scaled by gd and shifted by bd. -/
def rowNorm (row : Fin 2048 → EReal) (gd bd : EReal) (d : Fin 2048) : EReal :=
  (row d - rowMean row) * Ideal.rsqrt (rowVar row + eps) * gd + bd

variable (x : FVec Ideal SX .f32) (w : FVec Ideal SW .f32) (g be : FVec Ideal SV .f32)

/-- The normalised input at batch b, time r, channel d. -/
def normed (b : Fin 8) (r : Fin 4096) (d : Fin 2048) : EReal :=
  rowNorm (fun k => x (ix3 b r k)) (g (ix1 d)) (be (ix1 d)) d

/-- Row q of the padded sequence of batch b: zero in the three rows of padding, the normalised row
    q - 3 after them. -/
def tap (b : Fin 8) (q : ℕ) (d : Fin 2048) : EReal :=
  if h : 3 ≤ q ∧ q < 4099 then normed x g be b ⟨q - 3, by omega⟩ d else 0

/-- Inside the padding the padded row is zero. -/
theorem tap_of_lt (b : Fin 8) (q : ℕ) (d : Fin 2048) (h : q < 3) : tap x g be b q d = 0 := by
  unfold tap; rw [dif_neg (by omega)]

/-- Past the padding, padded row r + 3 is normalised row r. -/
theorem tap_of_ge (b : Fin 8) (q : ℕ) (d : Fin 2048) (r : Fin 4096) (h : q = r.val + 3) :
    tap x g be b q d = normed x g be b r d := by
  subst h
  unfold tap
  rw [dif_pos ⟨by omega, by have := r.isLt; omega⟩]
  exact congrArg (fun r' => normed x g be b r' d) (Fin.ext (by simp))

/-- The causal convolution: four taps on padded rows r, r + 1, r + 2, r + 3, added left to right. -/
def conv (b : Fin 8) (r : Fin 4096) (d : Fin 2048) : EReal :=
  w (ix2 d 0) * tap x g be b (r.val + 0) d + w (ix2 d 1) * tap x g be b (r.val + 1) d
    + w (ix2 d 2) * tap x g be b (r.val + 2) d + w (ix2 d 3) * tap x g be b (r.val + 3) d

/-- The whole result: y * logistic y of the convolution. -/
def G : FVec Ideal SX .f32 := fun i =>
  conv x w g be (i 0) (i 1) (i 2) * Ideal.logistic (conv x w g be (i 0) (i 1) (i 2))

theorem G_apply (b : Fin 8) (r : Fin 4096) (d : Fin 2048) :
    G x w g be (ix3 b r d) = conv x w g be b r d * Ideal.logistic (conv x w g be b r d) := rfl

end Cert.ShortConv

end
-- ==== Proof.Pieces.lean ====
/-
  What one grid point of the kernel leaves behind, as pure terms of what it loaded.

  A point of the grid handles 512 time steps of one batch entry. It normalises its block of the
  input, puts the three newest rows the previous point carried over in front of it, adds up the
  four taps, multiplies by the logistic and stores the block; then it leaves the last eight
  normalised rows in the carried buffer for the next point. At the first block of a sequence the
  carried buffer is zeroed first, so the history rows read there are zero rows.
-/
import proofs.«174624_j23570780520523_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.ShortConv.Pieces

open Cert.KernelIdeal Cert.KernelIdeal.Gen

variable {F : FTy → Type} [FloatOps F]

/-- The zero offsets, as the constant function. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A load through any rectangle of what ONE store of the whole buffer left reads the stored value
    there. -/
theorem readCov_whole_piece {sig : RefSig} {κ : Kind} {sp : Space} {S : Shape} {e : EltTy} {Val : EltTy → Type}
    [∀ e, Nonempty (Val e)] (v : View sig κ sp S e) {off : Fin S.rank → Nat} (h : off = fun _ => 0)
    (inb : ∀ a, off a + S.size a ≤ S.size a) (w : S.Idx → Val e) (r : Rect S) :
    v.readCov [(⟨Rect.unit off S.size inb, w⟩ : View.Piece Val S e)] r = View.ld w r := by
  subst h
  rw [View.readCov_eq_canon_ld _ _ _ (fun y => ⟨_, List.mem_singleton_self _, by
    show y ∈ (Rect.whole S).set; rw [Rect.set_whole]; exact Finset.mem_univ y⟩), View.canon_unit_zero rfl]

/-- Column 0, 1, 2, 3 of the tap table, each as a [2048, 1] vector. -/
abbrev wcol0 (x1 : Vec F S2048x4 .f32) : Vec F S2048x1 .f32 := View.ld x1 (Rect.unit ![0, 0] ![2048, 1] inb_S2048x4_S2048x1_0_0)
abbrev wcol1 (x1 : Vec F S2048x4 .f32) : Vec F S2048x1 .f32 := View.ld x1 (Rect.unit ![0, 1] ![2048, 1] inb_S2048x4_S2048x1_0_1)
abbrev wcol2 (x1 : Vec F S2048x4 .f32) : Vec F S2048x1 .f32 := View.ld x1 (Rect.unit ![0, 2] ![2048, 1] inb_S2048x4_S2048x1_0_2)
abbrev wcol3 (x1 : Vec F S2048x4 .f32) : Vec F S2048x1 .f32 := View.ld x1 (Rect.unit ![0, 3] ![2048, 1] inb_S2048x4_S2048x1_0_3)

/-- The last three of the eight carried rows: the history the convolution reads. -/
abbrev hist (xs : Vec F S8x2048 .f32) : Vec F S3x2048 .f32 := View.ld xs (Rect.unit ![5, 0] ![3, 2048] inb_S8x2048_S3x2048_5_0)

/-- What one grid point stores to its output block, as a function of the input block x0, the tap
    table x1, the scale and shift rows x2, x3 and the three history rows tl: the normalised block
    behind the history rows, the four taps added up, times its logistic. -/
def blockOut (x0 : Vec F S1x512x2048 .f32) (x1 : Vec F S2048x4 .f32) (x2 x3 : Vec F S1x2048 .f32) (tl : Vec F S3x2048 .f32) :
    Vec F S1x512x2048 .f32 :=
  k0_pay1 (k0_pay5 x0 x2 x3 tl) k0_pay6 (k0_pay7 x0 x2 x3 tl (wcol0 x1)) (wcol1 x1) (wcol2 x1) (wcol3 x1)

/-- Away from the start of a sequence the history rows are the last three rows the point before
    left in the carried buffer. -/
theorem out_B (c : Dev nD) (i : grid0.Coords) (arg2 : Memref sig .tc .vmem S1x512x2048 .f32) (harg2 : arg2.IsWhole) (arg3 : Memref sig .tc .vmem S2048x4 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x512x2048 .f32) (harg6 : arg6.IsWhole) (arg7 : Memref sig .tc .vmem S8x2048 .f32) (harg7 : arg7.IsWhole) (hc0 : ¬cond0_0 i)
    (x0 : Vec F S1x512x2048 .f32) (x1 : Vec F S2048x4 .f32) (x2 : Vec F S1x2048 .f32) (x3 : Vec F S1x2048 .f32) (xs0 : Vec F S8x2048 .f32) :
    out0_B_4 c i arg2 harg2 arg3 harg3 arg4 harg4 arg5 harg5 arg6 harg6 arg7 harg7 hc0 x0 x1 x2 x3 xs0 = blockOut x0 x1 x2 x3 (hist xs0) := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero hz3]
  simp only [View.readAt_eq_ld, harg2.read_unread, harg3.read_unread, harg4.read_unread, harg5.read_unread, harg7.read_unread, View.ld_unit_zero (S := S1x512x2048) hz3, View.ld_unit_zero (S := S1x2048) hz2]
  rfl

/-- At the start of a sequence the carried buffer has just been zeroed: the history rows are rows
    of the zero buffer. -/
theorem out_A (c : Dev nD) (i : grid0.Coords) (arg2 : Memref sig .tc .vmem S1x512x2048 .f32) (harg2 : arg2.IsWhole) (arg3 : Memref sig .tc .vmem S2048x4 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x512x2048 .f32) (harg6 : arg6.IsWhole) (arg7 : Memref sig .tc .vmem S8x2048 .f32) (harg7 : arg7.IsWhole) (hc0 : cond0_0 i)
    (x0 : Vec F S1x512x2048 .f32) (x1 : Vec F S2048x4 .f32) (x2 : Vec F S1x2048 .f32) (x3 : Vec F S1x2048 .f32) :
    out0_A_4 c i arg2 harg2 arg3 harg3 arg4 harg4 arg5 harg5 arg6 harg6 arg7 harg7 hc0 x0 x1 x2 x3 = blockOut x0 x1 x2 x3 (hist k0_pay3) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz3]
  simp only [View.readAt_eq_ld, harg2.read_unread, harg3.read_unread, harg4.read_unread, harg5.read_unread, harg7.read_unread, View.ld_unit_zero (S := S1x512x2048) hz3, View.ld_unit_zero (S := S1x2048) hz2, readCov_whole_piece (S := S8x2048) _ hz2]
  rfl

/-- Either way the point leaves the last eight rows of its normalised block in the carried
    buffer. -/
theorem sout_B (c : Dev nD) (i : grid0.Coords) (arg2 : Memref sig .tc .vmem S1x512x2048 .f32) (harg2 : arg2.IsWhole) (arg3 : Memref sig .tc .vmem S2048x4 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x512x2048 .f32) (harg6 : arg6.IsWhole) (arg7 : Memref sig .tc .vmem S8x2048 .f32) (harg7 : arg7.IsWhole) (hc0 : ¬cond0_0 i)
    (x0 : Vec F S1x512x2048 .f32) (x1 : Vec F S2048x4 .f32) (x2 : Vec F S1x2048 .f32) (x3 : Vec F S1x2048 .f32) (xs0 : Vec F S8x2048 .f32) :
    sout0_B_0 c i arg2 harg2 arg3 harg3 arg4 harg4 arg5 harg5 arg6 harg6 arg7 harg7 hc0 x0 x1 x2 x3 xs0 = k0_pay2 (k0_pay4 x0 x2 x3) := by
  unfold sout0_B_0
  rw [View.read_writes_eq_canon _ _ _ (scover0_B_0 c i arg2 harg2 arg3 harg3 arg4 harg4 arg5 harg5 arg6 harg6 arg7 harg7 hc0 x0 x1 x2 x3 xs0)]
  unfold kernelRun0_B
  dsimp only
  sl_unfold_words
  rw [View.canon_unit_zero hz2]
  simp only [View.readAt_eq_ld, harg2.read_unread, harg4.read_unread, harg5.read_unread, View.ld_unit_zero (S := S1x512x2048) hz3, View.ld_unit_zero (S := S1x2048) hz2]

theorem sout_A (c : Dev nD) (i : grid0.Coords) (arg2 : Memref sig .tc .vmem S1x512x2048 .f32) (harg2 : arg2.IsWhole) (arg3 : Memref sig .tc .vmem S2048x4 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x512x2048 .f32) (harg6 : arg6.IsWhole) (arg7 : Memref sig .tc .vmem S8x2048 .f32) (harg7 : arg7.IsWhole) (hc0 : cond0_0 i)
    (x0 : Vec F S1x512x2048 .f32) (x1 : Vec F S2048x4 .f32) (x2 : Vec F S1x2048 .f32) (x3 : Vec F S1x2048 .f32) :
    sout0_A_0 c i arg2 harg2 arg3 harg3 arg4 harg4 arg5 harg5 arg6 harg6 arg7 harg7 hc0 x0 x1 x2 x3 = k0_pay2 (k0_pay4 x0 x2 x3) := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_cons_unit_zero (S := S8x2048) hz2]
  simp only [View.readAt_eq_ld, harg2.read_unread, harg4.read_unread, harg5.read_unread, View.ld_unit_zero (S := S1x512x2048) hz3, View.ld_unit_zero (S := S1x2048) hz2]

end Cert.ShortConv.Pieces
end
-- ==== Proof.Body.lean ====
/-
  The kernel body's pure values, read one element at a time on the extended reals.

  Each value the body stores or carries is a composition of elementwise arithmetic with a few
  re-indexing operations (dropping or adding a unit axis, repeating a column or a row, taking a
  window of rows, stacking two blocks of rows) and one sum along the channel axis.  Every
  re-indexing operation reads exactly one element of its operand, and the sum reads one row, so
  each stored element is an explicit arithmetic expression in elements of the inputs.  The
  theorems below state those expressions.
-/
import proofs.«174624_j23570780520523_1_alg».proof.Proof.Spec
import proofs.«174624_j23570780520523_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.ShortConv.Body

open Idealize.ShloMosaic Idealize.ShloMosaic.ValueIdx Cert.KernelIdeal Cert.KernelIdeal.Gen Cert.ShortConv
open scoped BigOperators

/-! ## The re-indexing operations at explicit coordinates -/

section Reindex
variable {α : Type}

/-- A vector of 512 entries viewed as a column: entry (r, 0) is entry r. -/
theorem colOfVec_apply (u : S512.Idx → α) (r : Fin 512) (z : Fin 1) :
    shapeCast S512x1 u shapeCasts_S512_S512x1 (ix2 r z) = u (ix1 r) :=
  shapeCast_apply u _ _ _ (by
    have hz : z.val = 0 := by omega
    rw [Shape.rowMajor_val_two, Shape.rowMajor_val_one]
    show r.val = r.val * 1 + z.val
    rw [hz, Nat.mul_one, Nat.add_zero])

/-- A column of 2048 entries viewed as a vector: entry d is entry (d, 0). -/
theorem vecOfCol_apply (u : S2048x1.Idx → α) (d : Fin 2048) :
    shapeCast S2048 u shapeCasts_S2048x1_S2048 (ix1 d) = u (ix2 d (0 : Fin 1)) :=
  shapeCast_apply u _ _ _ (by
    rw [Shape.rowMajor_val_two, Shape.rowMajor_val_one]
    show d.val * 1 + 0 = d.val
    rw [Nat.mul_one, Nat.add_zero])

/-- A column of 512 entries repeated along the channel axis: entry (r, d) is entry (r, 0). -/
theorem bcastCol_apply (u : S512x1.Idx → α) (r : Fin 512) (d : Fin 2048) :
    broadcastTo S512x2048 u broadcasts_S512x1_S512x2048 (ix2 r d) = u (ix2 r (0 : Fin 1)) := by
  refine broadcastTo_apply u _ (ix2 r d) (ix2 r (0 : Fin 1)) fun ax => ?_
  match ax with
  | ⟨0, _⟩ => rfl
  | ⟨1, _⟩ => rfl

end Reindex

/-- The sum along the channel axis of a block of 512 rows, at row r: the plain sum of that row. -/
theorem laneSum_apply (v : FVec Ideal S512x2048 .f32) (acc : BitVec 32) (hφ : FKind.Formats .f32)
    (hacc : acc = FKind.add.neutral .f32 hφ) (r : Fin 512) :
    multiReduction (F := Ideal) .add [1] S512 v acc reduces_S512x2048_S512 hφ hacc (ix1 r)
      = ∑ k : Fin 2048, v (ix2 r k) := by
  refine (Ideal.multiReduction_add_single v acc reduces_S512x2048_S512 hφ hacc (ix1 r)).trans ?_
  refine Finset.sum_congr rfl fun k _ => congrArg v ?_
  funext c
  match c with
  | ⟨0, _⟩ => rfl
  | ⟨1, _⟩ => rfl

/-- The reciprocal square root of a block, at an index. -/
theorem rsqrt_apply {s : Shape} {φ : FTy} (a : FVec Ideal s φ) (i : s.Idx) : rsqrt a i = Ideal.rsqrt (a i) := rfl
/-- The logistic function of a block, at an index. -/
theorem logistic_apply {s : Shape} {φ : FTy} (a : FVec Ideal s φ) (i : s.Idx) : logistic a i = Ideal.logistic (a i) := rfl

/-- One tap of the convolution: a column of 2048 weights laid along the channel axis and repeated down the
    rows, times a window of 512 rows starting at row o of a block of 515 rows.  At (r, d) it is the weight
    of channel d times the block at row o + r. -/
theorem tapTerm_apply (c : Vec Ideal S2048x1 .f32) (e : FVec Ideal S515x2048 .f32) (o : Nat)
    (h : S515x2048.Slices ![o, 0] S512x2048) (r : Fin 512) (d : Fin 2048) (k : Fin 515) (hk : k.val = o + r.val) :
    mulf (broadcastTo S512x2048 (shapeCast S1x2048 (shapeCast S2048 c shapeCasts_S2048x1_S2048) shapeCasts_S2048_S1x2048)
        broadcasts_S1x2048_S512x2048) (extractStridedSlice S512x2048 ![o, 0] e h) (ix2 r d)
      = c (ix2 d 0) * e (ix2 k d) := by
  show broadcastTo S512x2048 (shapeCast S1x2048 (shapeCast S2048 c shapeCasts_S2048x1_S2048) shapeCasts_S2048_S1x2048)
        broadcasts_S1x2048_S512x2048 (ix2 r d) * extractStridedSlice S512x2048 ![o, 0] e h (ix2 r d) = _
  rw [broadcastTo_1b_ab_apply, shapeCast_a_1a_apply, vecOfCol_apply, slice2_axis0_apply o e h r d k hk]

/-! ## The body's values at an index -/

section Payloads
variable (x0 : Vec Ideal S1x512x2048 .f32) (g2 be2 : Vec Ideal S1x2048 .f32) (tl : Vec Ideal S3x2048 .f32)
  (c0 c1 c2 c3 : Vec Ideal S2048x1 .f32)

/-- The normalised block: row r, channel d is the row-normalisation of row r of the input block. -/
theorem pay4_apply (r : Fin 512) (d : Fin 2048) :
    k0_pay4 (F := Ideal) x0 g2 be2 (ix2 r d)
      = rowNorm (fun k => x0 (ix3 0 r k)) (g2 (ix2 0 d)) (be2 (ix2 0 d)) d := by
  -- the block as 512 rows
  let v4 : FVec Ideal S512x2048 .f32 := shapeCast S512x2048 x0 shapeCasts_S1x512x2048_S512x2048
  have h4 : ∀ k, v4 (ix2 r k) = x0 (ix3 0 r k) := fun k => shapeCast_1ab_ab_apply x0 _ r k
  -- the row's mean, as an entry of a column
  let v8 : FVec Ideal S512x1 .f32 :=
    divf (shapeCast S512x1 (multiReduction (F := Ideal) .add [1] S512 v4 0x00000000#32 reduces_S512x2048_S512 (.inl rfl) rfl)
      shapeCasts_S512_S512x1) (broadcast S512x1 chans)
  have h8 : v8 (ix2 r 0) = rowMean (fun k => x0 (ix3 0 r k)) := by
    show Ideal.div (shapeCast S512x1 _ shapeCasts_S512_S512x1 (ix2 r 0)) chans = Ideal.div _ chans
    refine congrArg (fun s => Ideal.div s chans) ?_
    refine (colOfVec_apply _ r 0).trans ((laneSum_apply v4 _ _ _ r).trans ?_)
    exact Finset.sum_congr rfl fun k _ => h4 k
  -- the deviations from the mean
  let v10 : FVec Ideal S512x2048 .f32 := subf v4 (broadcastTo S512x2048 v8 broadcasts_S512x1_S512x2048)
  have h10 : ∀ k, v10 (ix2 r k) = x0 (ix3 0 r k) - rowMean (fun k => x0 (ix3 0 r k)) := fun k => by
    show v4 (ix2 r k) - broadcastTo S512x2048 v8 broadcasts_S512x1_S512x2048 (ix2 r k) = _
    rw [bcastCol_apply, h4, h8]
  -- the reciprocal square root of the variance plus epsilon, as an entry of a column
  let v18 : FVec Ideal S512x1 .f32 :=
    rsqrt (addf (divf (shapeCast S512x1 (multiReduction (F := Ideal) .add [1] S512 (mulf v10 v10) 0x00000000#32
      reduces_S512x2048_S512 (.inl rfl) rfl) shapeCasts_S512_S512x1) (broadcast S512x1 chans)) (broadcast S512x1 eps))
  have h18 : v18 (ix2 r 0) = Ideal.rsqrt (rowVar (fun k => x0 (ix3 0 r k)) + eps) := by
    show Ideal.rsqrt (Ideal.div (shapeCast S512x1 _ shapeCasts_S512_S512x1 (ix2 r 0)) chans + eps) = Ideal.rsqrt (Ideal.div _ chans + eps)
    refine congrArg (fun s => Ideal.rsqrt (Ideal.div s chans + eps)) ?_
    refine (colOfVec_apply _ r 0).trans ((laneSum_apply (mulf v10 v10) _ _ _ r).trans ?_)
    refine Finset.sum_congr rfl fun k _ => ?_
    show v10 (ix2 r k) * v10 (ix2 r k) = _
    rw [h10]
  -- scale and shift
  show v10 (ix2 r d) * broadcastTo S512x2048 v18 broadcasts_S512x1_S512x2048 (ix2 r d)
      * broadcastTo S512x2048 (shapeCast S1x2048 g2 shapeCasts_S1x2048_S1x2048) broadcasts_S1x2048_S512x2048 (ix2 r d)
      + broadcastTo S512x2048 (shapeCast S1x2048 be2 shapeCasts_S1x2048_S1x2048) broadcasts_S1x2048_S512x2048 (ix2 r d) = _
  rw [bcastCol_apply, broadcastTo_1b_ab_apply, broadcastTo_1b_ab_apply, shapeCast_self, shapeCast_self, h10, h18]
  rfl

/-- The first three rows of the stacked block are the three history rows. -/
theorem pay5_apply_lo (j : Fin 515) (d : Fin 2048) (h : j.val < 3) :
    k0_pay5 (F := Ideal) x0 g2 be2 tl (ix2 j d) = tl (ix2 ⟨j.val, h⟩ d) :=
  concatenate_pair_apply_left (t := S515x2048) 0 tl (k0_pay4 (F := Ideal) x0 g2 be2)
    concatenates_S3x2048_S512x2048_S515x2048_d0 (ix2 j d) rfl (ix2 ⟨j.val, h⟩ d)
    (fun b => by match b with | ⟨0, _⟩ => rfl | ⟨1, _⟩ => rfl)

/-- From row 3 on the stacked block is the normalised block, three rows up. -/
theorem pay5_apply_hi (j : Fin 515) (d : Fin 2048) (h : 3 ≤ j.val) :
    k0_pay5 (F := Ideal) x0 g2 be2 tl (ix2 j d) = k0_pay4 (F := Ideal) x0 g2 be2 (ix2 ⟨j.val - 3, by omega⟩ d) :=
  concatenate_pair_apply_right (t := S515x2048) 0 tl (k0_pay4 (F := Ideal) x0 g2 be2)
    concatenates_S3x2048_S512x2048_S515x2048_d0 (ix2 j d) rfl rfl (ix2 ⟨j.val - 3, by omega⟩ d)
    (fun b hb => by
      match b with
      | ⟨0, _⟩ => exact absurd rfl hb
      | ⟨1, _⟩ => rfl)
    (by show j.val - 3 + 3 = j.val; omega)

/-- The first tap: the weight of channel d times row r of the stacked block. -/
theorem pay7_apply (r : Fin 512) (d : Fin 2048) :
    k0_pay7 (F := Ideal) x0 g2 be2 tl c0 (ix2 r d)
      = c0 (ix2 d 0) * k0_pay5 (F := Ideal) x0 g2 be2 tl (ix2 ⟨r.val, by omega⟩ d) :=
  tapTerm_apply c0 (k0_pay5 (F := Ideal) x0 g2 be2 tl) 0 slices_S515x2048_o0_0_S512x2048 r d ⟨r.val, by omega⟩
    (by show r.val = 0 + r.val; omega)

/-- The stored block: with y the first tap plus the three later taps on rows r + 1, r + 2, r + 3 of a
    block e of 515 rows (the leading +0.0 of the accumulator adds nothing), the element is y times the
    logistic function of y. -/
theorem pay1_apply (e : FVec Ideal S515x2048 .f32) (v37 : FVec Ideal S512x2048 .f32) (r : Fin 512) (d : Fin 2048) :
    k0_pay1 (F := Ideal) e k0_pay6 v37 c1 c2 c3 (ix3 0 r d)
      = (v37 (ix2 r d) + c1 (ix2 d 0) * e (ix2 ⟨r.val + 1, by omega⟩ d) + c2 (ix2 d 0) * e (ix2 ⟨r.val + 2, by omega⟩ d)
            + c3 (ix2 d 0) * e (ix2 ⟨r.val + 3, by omega⟩ d))
          * Ideal.logistic (v37 (ix2 r d) + c1 (ix2 d 0) * e (ix2 ⟨r.val + 1, by omega⟩ d)
            + c2 (ix2 d 0) * e (ix2 ⟨r.val + 2, by omega⟩ d) + c3 (ix2 d 0) * e (ix2 ⟨r.val + 3, by omega⟩ d)) := by
  -- the sum of the four taps
  let y : FVec Ideal S512x2048 .f32 :=
    addf (addf (addf (addf k0_pay6 v37)
      (mulf (broadcastTo S512x2048 (shapeCast S1x2048 (shapeCast S2048 c1 shapeCasts_S2048x1_S2048) shapeCasts_S2048_S1x2048)
        broadcasts_S1x2048_S512x2048) (extractStridedSlice S512x2048 ![1, 0] e slices_S515x2048_o1_0_S512x2048)))
      (mulf (broadcastTo S512x2048 (shapeCast S1x2048 (shapeCast S2048 c2 shapeCasts_S2048x1_S2048) shapeCasts_S2048_S1x2048)
        broadcasts_S1x2048_S512x2048) (extractStridedSlice S512x2048 ![2, 0] e slices_S515x2048_o2_0_S512x2048)))
      (mulf (broadcastTo S512x2048 (shapeCast S1x2048 (shapeCast S2048 c3 shapeCasts_S2048x1_S2048) shapeCasts_S2048_S1x2048)
        broadcasts_S1x2048_S512x2048) (extractStridedSlice S512x2048 ![3, 0] e slices_S515x2048_o3_0_S512x2048))
  have hy : y (ix2 r d) = v37 (ix2 r d) + c1 (ix2 d 0) * e (ix2 ⟨r.val + 1, by omega⟩ d)
      + c2 (ix2 d 0) * e (ix2 ⟨r.val + 2, by omega⟩ d) + c3 (ix2 d 0) * e (ix2 ⟨r.val + 3, by omega⟩ d) := by
    show Ideal.ofBits .f32 0x00000000#32 + v37 (ix2 r d)
        + mulf (broadcastTo S512x2048 (shapeCast S1x2048 (shapeCast S2048 c1 shapeCasts_S2048x1_S2048) shapeCasts_S2048_S1x2048)
            broadcasts_S1x2048_S512x2048) (extractStridedSlice S512x2048 ![1, 0] e slices_S515x2048_o1_0_S512x2048) (ix2 r d)
        + mulf (broadcastTo S512x2048 (shapeCast S1x2048 (shapeCast S2048 c2 shapeCasts_S2048x1_S2048) shapeCasts_S2048_S1x2048)
            broadcasts_S1x2048_S512x2048) (extractStridedSlice S512x2048 ![2, 0] e slices_S515x2048_o2_0_S512x2048) (ix2 r d)
        + mulf (broadcastTo S512x2048 (shapeCast S1x2048 (shapeCast S2048 c3 shapeCasts_S2048x1_S2048) shapeCasts_S2048_S1x2048)
            broadcasts_S1x2048_S512x2048) (extractStridedSlice S512x2048 ![3, 0] e slices_S515x2048_o3_0_S512x2048) (ix2 r d) = _
    rw [Ideal.ofBits_zero_f32, zero_add,
      tapTerm_apply c1 e 1 slices_S515x2048_o1_0_S512x2048 r d ⟨r.val + 1, by omega⟩ (by show r.val + 1 = 1 + r.val; omega),
      tapTerm_apply c2 e 2 slices_S515x2048_o2_0_S512x2048 r d ⟨r.val + 2, by omega⟩ (by show r.val + 2 = 2 + r.val; omega),
      tapTerm_apply c3 e 3 slices_S515x2048_o3_0_S512x2048 r d ⟨r.val + 3, by omega⟩ (by show r.val + 3 = 3 + r.val; omega)]
  -- times its logistic function, under a leading unit axis
  show shapeCast S1x512x2048 (mulf y (logistic y)) shapeCasts_S512x2048_S1x512x2048 (ix3 0 r d) = _
  rw [shapeCast_ab_1ab_apply]
  show y (ix2 r d) * Ideal.logistic (y (ix2 r d)) = _
  rw [hy]

/-- The history kept for the next block: the last eight rows. -/
theorem pay2_apply (v : FVec Ideal S512x2048 .f32) (j : Fin 8) (d : Fin 2048) :
    k0_pay2 (F := Ideal) v (ix2 j d) = v (ix2 ⟨504 + j.val, by omega⟩ d) := by
  show shapeCast S8x2048 (extractStridedSlice S8x2048 ![504, 0] v slices_S512x2048_o504_0_S8x2048)
      shapeCasts_S8x2048_S8x2048 (ix2 j d) = _
  rw [shapeCast_self]
  exact slice2_axis0_apply 504 v slices_S512x2048_o504_0_S8x2048 j d ⟨504 + j.val, by omega⟩ rfl

/-- The history before the first block: zero everywhere. -/
theorem pay3_apply (j : Fin 8) (d : Fin 2048) : k0_pay3 (F := Ideal) (ix2 j d) = 0 := by
  show shapeCast S8x2048 (broadcast S8x2048 (Ideal.ofBits .f32 0x00000000#32)) shapeCasts_S8x2048_S8x2048 (ix2 j d) = 0
  rw [shapeCast_self]
  exact Ideal.ofBits_zero_f32

end Payloads

end Cert.ShortConv.Body

end
-- ==== Proof.Blocks.lean ====
/-
  From the blocks to the array: the kernel's result array is G of its argument arrays.

  The grid has 64 points; point t handles batch entry t / 8 and time block t % 8, 512 time steps.
  Read through the windows, the input block of point t is rows 512 (t % 8) .. 512 (t % 8) + 511 of
  batch t / 8, the tap table and the scale and shift rows are the whole arrays. Every point leaves
  the last eight rows of its normalised block in the carried buffer, so the three history rows a
  later block of the same sequence reads are normalised rows 512 (t % 8) - 3 .. 512 (t % 8) - 1,
  and at the first block of a sequence they are zero rows: in both cases row j of the 515 rows the
  point convolves is padded row 512 (t % 8) + j. Hence the block a point stores is its block of G,
  and the 64 blocks fill the array.
-/
import proofs.«174624_j23570780520523_1_alg».proof.Proof.Spec
import proofs.«174624_j23570780520523_1_alg».proof.Proof.Pieces
import proofs.«174624_j23570780520523_1_alg».proof.Proof.Body
import proofs.«174624_j23570780520523_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.ShortConv.Blocks

open Cert.KernelIdeal Cert.KernelIdeal.Gen

variable {F : FTy → Type} [FloatOps F]
variable (m : (ℓ : Loc nD τ sig) → Buf (Elt F) ℓ)

/-- The printed index maps over the 64 grid points: point t is batch t / 8, time block t % 8. -/
theorem idx_facts : ∀ t : Fin cfg0.N,
    win0_0.index t (0 : Fin 3) = t.val / 8 ∧ win0_0.index t (1 : Fin 3) = t.val % 8 ∧ win0_0.index t (2 : Fin 3) = 0
    ∧ win0_4.index t (0 : Fin 3) = t.val / 8 ∧ win0_4.index t (1 : Fin 3) = t.val % 8 ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

abbrev xblk (c : Dev nD) (t : Fin cfg0.N) : Vec F S1x512x2048 .f32 := iblk m c 0 t
abbrev wblk (c : Dev nD) (t : Fin cfg0.N) : Vec F S2048x4 .f32 := iblk m c 1 t
abbrev gblk (c : Dev nD) (t : Fin cfg0.N) : Vec F S1x2048 .f32 := iblk m c 2 t
abbrev bblk (c : Dev nD) (t : Fin cfg0.N) : Vec F S1x2048 .f32 := iblk m c 3 t

theorem xblk_apply (c : Dev nD) (t : Fin cfg0.N) (r : Fin 512) (d : Fin 2048) (b : Fin 8) (q : Fin 4096)
    (hb : b.val = t.val / 8) (hq : q.val = 512 * (t.val % 8) + r.val) :
    xblk m c t (ix3 0 r d) = V m c main_arg0 (ix3 b q d) := by
  obtain ⟨e0, e1, e2, -⟩ := idx_facts t
  show V m c main_arg0 (((cfg0.win 0).blk t).view.emb (ix3 0 r d)) = V m c main_arg0 (ix3 b q d)
  refine congrArg _ (funext fun a => Fin.ext ?_)
  match a with
  | ⟨0, _⟩ => show win0_0.index t (0 : Fin 3) * 1 + 1 * 0 = b.val; omega
  | ⟨1, _⟩ => show win0_0.index t (1 : Fin 3) * 512 + 1 * r.val = q.val; omega
  | ⟨2, _⟩ => show win0_0.index t (2 : Fin 3) * 2048 + 1 * d.val = d.val; omega

theorem wblk_eq (c : Dev nD) (t : Fin cfg0.N) : wblk m c t = V m c main_arg1 := by
  obtain ⟨-, -, -, -, -, -, e0, e1, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 2048 + 1 * (y 0).val = (y 0).val; omega
  | ⟨1, _⟩ => show win0_1.index t (1 : Fin 2) * 4 + 1 * (y 1).val = (y 1).val; omega

theorem gblk_eq (c : Dev nD) (t : Fin cfg0.N) : gblk m c t = V m c main_v0 := by
  obtain ⟨-, -, -, -, -, -, -, -, e0, e1, -⟩ := idx_facts t
  funext y
  show V m c main_v0 (((cfg0.win 2).blk t).view.emb y) = V m c main_v0 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 2048 + 1 * (y 1).val = (y 1).val; omega

theorem bblk_eq (c : Dev nD) (t : Fin cfg0.N) : bblk m c t = V m c main_v1 := by
  obtain ⟨-, -, -, -, -, -, -, -, -, -, e0, e1⟩ := idx_facts t
  funext y
  show V m c main_v1 (((cfg0.win 3).blk t).view.emb y) = V m c main_v1 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 2048 + 1 * (y 1).val = (y 1).val; omega

/-- The scale row the region finds is the scale vector viewed as one row. -/
theorem V_v0 (c : Dev nD) : (V m c main_v0 : S1x2048.Idx → Elt F .f32) = shapeCast S1x2048 (m ((c : Thread nD τ).loc main_arg2)) shapeCasts_S2048_S1x2048 := by
  dsimp only [Gen.V, Gen.hostOps0]; after_results; rfl

theorem V_v1 (c : Dev nD) : (V m c main_v1 : S1x2048.Idx → Elt F .f32) = shapeCast S1x2048 (m ((c : Thread nD τ).loc main_arg3)) shapeCasts_S2048_S1x2048 := by
  dsimp only [Gen.V, Gen.hostOps0]; after_results; rfl

section AtIdeal

open Cert.ShortConv Cert.ShortConv.Pieces

variable (m : (ℓ : Loc nD τ sig) → Buf (Elt Ideal) ℓ)

/-- The four argument arrays on core c. -/
abbrev X (c : Dev nD) : FVec Ideal SX .f32 := m ((c : Thread nD τ).loc main_arg0)
abbrev Wt (c : Dev nD) : FVec Ideal SW .f32 := m ((c : Thread nD τ).loc main_arg1)
abbrev Gm (c : Dev nD) : FVec Ideal SV .f32 := m ((c : Thread nD τ).loc main_arg2)
abbrev Bt (c : Dev nD) : FVec Ideal SV .f32 := m ((c : Thread nD τ).loc main_arg3)

theorem xblk_arg (c : Dev nD) (t : Fin cfg0.N) (r : Fin 512) (d : Fin 2048) (b : Fin 8) (q : Fin 4096)
    (hb : b.val = t.val / 8) (hq : q.val = 512 * (t.val % 8) + r.val) :
    xblk m c t (ix3 0 r d) = X m c (ix3 b q d) := by
  rw [xblk_apply m c t r d b q hb hq, V_main_arg0]

theorem wblk_arg (c : Dev nD) (t : Fin cfg0.N) : wblk m c t = Wt m c := by
  rw [wblk_eq, V_main_arg1]

theorem gblk_arg (c : Dev nD) (t : Fin cfg0.N) (d : Fin 2048) : gblk m c t (ix2 0 d) = Gm m c (ix1 d) := by
  rw [gblk_eq, V_v0]; exact shapeCast_a_1a_apply _ _ 0 d

theorem bblk_arg (c : Dev nD) (t : Fin cfg0.N) (d : Fin 2048) : bblk m c t (ix2 0 d) = Bt m c (ix1 d) := by
  rw [bblk_eq, V_v1]; exact shapeCast_a_1a_apply _ _ 0 d

/-- A column of the tap table, read at a channel. -/
theorem wcol0_apply (x1 : Vec Ideal S2048x4 .f32) (d : Fin 2048) : wcol0 x1 (ix2 d 0) = x1 (ix2 d 0) :=
  congrArg x1 (funext fun a => Fin.ext (by match a with | ⟨0, _⟩ => show 0 + 1 * d.val = d.val; omega | ⟨1, _⟩ => rfl))
theorem wcol1_apply (x1 : Vec Ideal S2048x4 .f32) (d : Fin 2048) : wcol1 x1 (ix2 d 0) = x1 (ix2 d 1) :=
  congrArg x1 (funext fun a => Fin.ext (by match a with | ⟨0, _⟩ => show 0 + 1 * d.val = d.val; omega | ⟨1, _⟩ => rfl))
theorem wcol2_apply (x1 : Vec Ideal S2048x4 .f32) (d : Fin 2048) : wcol2 x1 (ix2 d 0) = x1 (ix2 d 2) :=
  congrArg x1 (funext fun a => Fin.ext (by match a with | ⟨0, _⟩ => show 0 + 1 * d.val = d.val; omega | ⟨1, _⟩ => rfl))
theorem wcol3_apply (x1 : Vec Ideal S2048x4 .f32) (d : Fin 2048) : wcol3 x1 (ix2 d 0) = x1 (ix2 d 3) :=
  congrArg x1 (funext fun a => Fin.ext (by match a with | ⟨0, _⟩ => show 0 + 1 * d.val = d.val; omega | ⟨1, _⟩ => rfl))

/-- History row j is carried row 5 + j. -/
theorem hist_apply (xs : Vec Ideal S8x2048 .f32) (j : Fin 3) (d : Fin 2048) :
    hist xs (ix2 j d) = xs (ix2 ⟨5 + j.val, by omega⟩ d) :=
  congrArg xs (funext fun a => Fin.ext (by match a with | ⟨0, _⟩ => show 5 + 1 * j.val = 5 + j.val; omega | ⟨1, _⟩ => show 0 + 1 * d.val = d.val; omega))

/-- Row r of the block normalised at point t is normalised row 512 (t % 8) + r of batch t / 8. -/
theorem xn_blk (c : Dev nD) (t : Fin cfg0.N) (r : Fin 512) (d : Fin 2048) (b : Fin 8) (q : Fin 4096)
    (hb : b.val = t.val / 8) (hq : q.val = 512 * (t.val % 8) + r.val) :
    k0_pay4 (F := Ideal) (xblk m c t) (gblk m c t) (bblk m c t) (ix2 r d) = normed (X m c) (Gm m c) (Bt m c) b q d := by
  rw [Body.pay4_apply, gblk_arg, bblk_arg]
  unfold normed
  exact congrArg (fun row => rowNorm row (Gm m c (ix1 d)) (Bt m c (ix1 d)) d) (funext fun k => xblk_arg m c t r k b q hb hq)

/-- What every point leaves in the carried buffer: the last eight rows of its normalised block. -/
theorem carried_eq (c : Dev nD) (t : Fin cfg0.N) :
    (outsAt0 m c t.val t.isLt).2 = k0_pay2 (k0_pay4 (xblk m c t) (gblk m c t) (bblk m c t)) := by
  by_cases h0 : t.val % 8 = 0
  · rw [outsAt0_A m c t h0]; dsimp only
    exact sout_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)
  · rw [outsAt0_B m c t h0]; dsimp only
    exact sout_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) _

theorem carried_apply (c : Dev nD) (t : Fin cfg0.N) (j : Fin 8) (d : Fin 2048) (b : Fin 8) (q : Fin 4096)
    (hb : b.val = t.val / 8) (hq : q.val = 512 * (t.val % 8) + 504 + j.val) :
    (outsAt0 m c t.val t.isLt).2 (ix2 j d) = normed (X m c) (Gm m c) (Bt m c) b q d := by
  rw [carried_eq, Body.pay2_apply]
  exact xn_blk m c t ⟨504 + j.val, by omega⟩ d b q hb (by show q.val = 512 * (t.val % 8) + (504 + j.val); omega)

/-- The history rows point t reads: zero rows at the first block of a sequence, the newest three
    rows the point before carried over otherwise. -/
def histAt (c : Dev nD) (t : Fin cfg0.N) : Vec Ideal S3x2048 .f32 :=
  if t.val % 8 = 0 then hist (k0_pay3 (F := Ideal))
  else hist (outsAt0 m c (t.val - 1) (Nat.lt_of_le_of_lt (Nat.sub_le _ _) t.isLt)).2

/-- THE EXTENDED BLOCK: row j of the 515 rows point t convolves is padded row 512 (t % 8) + j of
    batch t / 8. -/
theorem ext_apply (c : Dev nD) (t : Fin cfg0.N) (j : Fin 515) (d : Fin 2048) (b : Fin 8) (n : ℕ)
    (hb : b.val = t.val / 8) (hn : n = 512 * (t.val % 8) + j.val) :
    k0_pay5 (F := Ideal) (xblk m c t) (gblk m c t) (bblk m c t) (histAt m c t) (ix2 j d)
      = tap (X m c) (Gm m c) (Bt m c) b n d := by
  have hN : t.val < 64 := lt_of_lt_of_eq t.isLt (show cfg0.N = 64 from N_0)
  by_cases hj : j.val < 3
  · rw [Body.pay5_apply_lo _ _ _ _ j d hj]
    unfold histAt
    by_cases h0 : t.val % 8 = 0
    · rw [if_pos h0, hist_apply, Body.pay3_apply, tap_of_lt _ _ _ _ _ _ (by omega)]
    · rw [if_neg h0, hist_apply]
      have hlt : t.val - 1 < cfg0.N := Nat.lt_of_le_of_lt (Nat.sub_le _ _) t.isLt
      rw [tap_of_ge _ _ _ b n d ⟨512 * (t.val % 8) + j.val - 3, by omega⟩ (by show n = 512 * (t.val % 8) + j.val - 3 + 3; omega)]
      exact carried_apply m c ⟨t.val - 1, hlt⟩ ⟨5 + j.val, by omega⟩ d b _
        (by show b.val = (t.val - 1) / 8; omega)
        (by show 512 * (t.val % 8) + j.val - 3 = 512 * ((t.val - 1) % 8) + 504 + (5 + j.val); omega)
  · have hj' : 3 ≤ j.val := Nat.le_of_not_lt hj
    have hj2 : j.val < 515 := j.isLt
    rw [Body.pay5_apply_hi _ _ _ _ j d hj',
      tap_of_ge _ _ _ b n d ⟨512 * (t.val % 8) + j.val - 3, by omega⟩ (by show n = 512 * (t.val % 8) + j.val - 3 + 3; omega)]
    exact xn_blk m c t ⟨j.val - 3, by omega⟩ d b _ hb (by show 512 * (t.val % 8) + j.val - 3 = 512 * (t.val % 8) + (j.val - 3); omega)

/-- THE BLOCK A POINT STORES is its block of G: row r of point t's output is G at batch t / 8, time
    512 (t % 8) + r. -/
theorem blockOut_apply (c : Dev nD) (t : Fin cfg0.N) (r : Fin 512) (d : Fin 2048) (b : Fin 8) (q : Fin 4096)
    (hb : b.val = t.val / 8) (hq : q.val = 512 * (t.val % 8) + r.val) :
    blockOut (xblk m c t) (wblk m c t) (gblk m c t) (bblk m c t) (histAt m c t) (ix3 0 r d)
      = G (X m c) (Wt m c) (Gm m c) (Bt m c) (ix3 b q d) := by
  unfold blockOut
  rw [Body.pay1_apply, Body.pay7_apply,
    ext_apply m c t ⟨r.val, by omega⟩ d b (q.val + 0) hb (by show q.val + 0 = 512 * (t.val % 8) + r.val; omega),
    ext_apply m c t ⟨r.val + 1, by omega⟩ d b (q.val + 1) hb (by show q.val + 1 = 512 * (t.val % 8) + (r.val + 1); omega),
    ext_apply m c t ⟨r.val + 2, by omega⟩ d b (q.val + 2) hb (by show q.val + 2 = 512 * (t.val % 8) + (r.val + 2); omega),
    ext_apply m c t ⟨r.val + 3, by omega⟩ d b (q.val + 3) hb (by show q.val + 3 = 512 * (t.val % 8) + (r.val + 3); omega),
    wcol0_apply, wcol1_apply, wcol2_apply, wcol3_apply, wblk_arg, G_apply]
  rfl

/-- What point t leaves in the output's staging buffer. -/
theorem out_eq (c : Dev nD) (t : Fin cfg0.N) :
    (outsAt0 m c t.val t.isLt).1 = blockOut (xblk m c t) (wblk m c t) (gblk m c t) (bblk m c t) (histAt m c t) := by
  unfold histAt
  by_cases h0 : t.val % 8 = 0
  · rw [if_pos h0, outsAt0_A m c t h0]; dsimp only
    exact out_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)
  · rw [if_neg h0, outsAt0_B m c t h0]; dsimp only
    exact out_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) _

/-- WHAT POINT t WRITES BACK is block t of G of the argument arrays. -/
theorem flushed_eq (c : Dev nD) (t : Fin cfg0.N) :
    (dats m 0 c).flushed 4 t = ((cfg0.win 4).blk t).view.read (Elt Ideal) (G (X m c) (Wt m c) (Gm m c) (Bt m c)) := by
  show (cfg0.win 4).cut (grid0.coords t) ((dats m 0 c).after 4 t) = _
  rw [after0_4, out_eq]
  have hN : t.val < 64 := lt_of_lt_of_eq t.isLt (show cfg0.N = 64 from N_0)
  obtain ⟨-, -, -, e0, e1, e2, -⟩ := idx_facts t
  funext y
  obtain ⟨u, r, d, rfl⟩ : ∃ (u : Fin 1) (r : Fin 512) (d : Fin 2048), y = ix3 u r d := ⟨y 0, y 1, y 2, eq_ix3 y⟩
  obtain rfl : u = 0 := Subsingleton.elim _ _
  show blockOut (xblk m c t) (wblk m c t) (gblk m c t) (bblk m c t) (histAt m c t) (ix3 0 r d)
    = G (X m c) (Wt m c) (Gm m c) (Bt m c) (((cfg0.win 4).blk t).view.emb (ix3 0 r d))
  rw [blockOut_apply m c t r d ⟨t.val / 8, by omega⟩ ⟨512 * (t.val % 8) + r.val, by omega⟩ rfl rfl]
  refine congrArg _ (funext fun a => Fin.ext ?_)
  match a with
  | ⟨0, _⟩ => show t.val / 8 = win0_4.index t (0 : Fin 3) * 1 + 1 * 0; omega
  | ⟨1, _⟩ => show 512 * (t.val % 8) + r.val = win0_4.index t (1 : Fin 3) * 512 + 1 * r.val; omega
  | ⟨2, _⟩ => show d.val = win0_4.index t (2 : Fin 3) * 2048 + 1 * d.val; omega

/-- An index of the result array is in point t's block iff each coordinate is in the block's range. -/
theorem mem_blk (t : Fin cfg0.N) (i : S8x4096x2048.Idx) :
    i ∈ ((cfg0.win 4).blk t).view.set ↔ ∀ a : Fin 3, win0_4.index t a * S1x512x2048.size a ≤ (i a).val ∧ (i a).val < win0_4.index t a * S1x512x2048.size a + S1x512x2048.size a := by
  show i ∈ ((View.whole main_v2).slice (win0_4.rect t)).set ↔ _
  rw [View.set_slice_whole, Rect.mem_set_unit]
  exact Iff.rfl

/-- The 64 blocks fill the result array: index (b, s, d) lies in the block of point 8 b + s / 512. -/
theorem cover (i : S8x4096x2048.Idx) : ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 2048 := (i 2).isLt
  have hN : cfg0.N = 64 := N_0
  refine ⟨⟨8 * (i 0).val + (i 1).val / 512, by omega⟩, flush0_4 _, ?_⟩
  rw [mem_blk]
  obtain ⟨-, -, -, e0, e1, e2, -⟩ := idx_facts ⟨8 * (i 0).val + (i 1).val / 512, by omega⟩
  intro a
  match a with
  | ⟨0, _⟩ =>
    show win0_4.index _ (0 : Fin 3) * 1 ≤ (i 0).val ∧ (i 0).val < win0_4.index _ (0 : Fin 3) * 1 + 1
    rw [e0]; dsimp only; omega
  | ⟨1, _⟩ =>
    show win0_4.index _ (1 : Fin 3) * 512 ≤ (i 1).val ∧ (i 1).val < win0_4.index _ (1 : Fin 3) * 512 + 512
    rw [e1]; dsimp only; omega
  | ⟨2, _⟩ =>
    show win0_4.index _ (2 : Fin 3) * 2048 ≤ (i 2).val ∧ (i 2).val < win0_4.index _ (2 : Fin 3) * 2048 + 2048
    rw [e2]; omega

/-- THE RESULT ARRAY after the run is G of the argument arrays. -/
theorem final (c : Dev nD) :
    (dats m 0 c).arrAt 4 cfg0.N = G (X m c) (Wt m c) (Gm m c) (Bt m c) :=
  (dats m 0 c).arrAt_eq_of_cover 4 (G (X m c) (Wt m c) (Gm m c) (Bt m c)) (fun t _ => flushed_eq m c t) cover

end AtIdeal

end Cert.ShortConv.Blocks
end
-- ==== Proof.RefValue.lean ====
/-
  The reference program computes G.

  The reference normalises every row of the input over its 2048 channels, puts three rows of zeros in front of
  the time axis, cuts four blocks of 4096 rows out of the padded array at the row offsets 0, 1, 2, 3, multiplies
  block j by column j of the tap table, adds the four products up starting from a zero array, and multiplies the
  sum y by 1 / (1 + exp (-y)).  Read at an index (b, r, d), one operation at a time, this is the function G of the
  specification:

    * the two row sums start from the word of +0.0, which is 0, so each is the plain sum over the 2048 channels,
      and the normalised array at (b, r, d) is the specification's normalised row;
    * the padded array at (b, q, d) is padded row q: zero for q < 3 (the padding value is the integer 0
      converted, which is 0), the normalised row q - 3 from row 3 on;
    * a block cut at the start (0, j, 0) reads, at row r, row r + j of the padded array (the starts are the words
      of 0, 1, 2, 3, which read signed are those numbers, and a block of 4096 rows at such a start lies inside the
      4099 rows, so no start is clamped);
    * a column of the tap table, reshaped to a vector and copied along batch and time, reads w[d, j];
    * the accumulated sum starts from 0, so it is the four products added left to right: the convolution;
    * 1 / (1 + exp (-y)) is the logistic function of y by definition.
-/
import proofs.«174624_j23570780520523_1_alg».proof.Proof.Spec
import proofs.«174624_j23570780520523_1_alg».proof.Proof.RefRead
import Idealize.ShloMosaic.Lib.KernelVsHost
import Idealize.ShloMosaic.Lib.DynamicIndex
import Idealize.ShloMosaic.Lib.ValueLayout
import Idealize.ShloMosaic.Lib.IdealHost
import Idealize.ShloMosaic.Lib.ValueIdx
import Idealize.ShloMosaic.PureOps.Ideal.Laws

noncomputable section

namespace Cert.ShortConv.Ref

open Cert.ReferenceIdeal Cert.ReferenceIdeal.Gen Cert.ReferenceIdeal.ReadP Idealize.ShloMosaic Idealize.ShloMosaic.ValueIdx
open scoped BigOperators

/-! ## Padding and cutting, for any array of the two shapes -/

/-- Three rows of padding in front of the time axis: from row 3 on the padded array is the operand three rows
    back. -/
theorem pad_inside {α : Type} (X : S8x4096x2048.Idx → α) (v : S_.Idx → α) (b : Fin 8) (q : Fin 4099) (d : Fin 2048)
    (h : 3 ≤ q.val) :
    pad S8x4099x2048 ![0, 3, 0] ![0, 0, 0] ![0, 0, 0] X v pads_S8x4096x2048_S8x4099x2048_000_300_000 h_S_ (ix3 b q d)
      = X (ix3 b ⟨q.val - 3, by have := q.isLt; omega⟩ d) :=
  pad_apply_of_inside _ _ _ X v pads_S8x4096x2048_S8x4099x2048_000_300_000 h_S_ (ix3 b q d)
    (ix3 b ⟨q.val - 3, by have := q.isLt; omega⟩ d) (fun a => match a with
      | ⟨0, _⟩ => by show b.val = 0 + b.val * (0 + 1); omega
      | ⟨1, _⟩ => by show q.val = 3 + (q.val - 3) * (0 + 1); omega
      | ⟨2, _⟩ => by show d.val = 0 + d.val * (0 + 1); omega)

/-- In the first three rows the padded array holds the padding value. -/
theorem pad_outside {α : Type} (X : S8x4096x2048.Idx → α) (v : S_.Idx → α) (b : Fin 8) (q : Fin 4099) (d : Fin 2048)
    (h : q.val < 3) :
    pad S8x4099x2048 ![0, 3, 0] ![0, 0, 0] ![0, 0, 0] X v pads_S8x4096x2048_S8x4099x2048_000_300_000 h_S_ (ix3 b q d)
      = v (Shape.Idx.first h_S_) :=
  pad_apply_of_not_inside _ _ _ X v pads_S8x4096x2048_S8x4099x2048_000_300_000 h_S_ (ix3 b q d) (1 : Fin 3)
    (fun hin => by have h3 : 3 ≤ q.val := hin.1; omega)

/-- A block of 4096 rows cut from an array of 4099 rows at a start (0, j, 0) with j ≤ 3, the starts given as signed
    integers: the block fits, so no start is clamped, and row r of the block is row r + j of the array. -/
theorem dynSlice_apply {α : Type} (X : S8x4099x2048.Idx → α) (start : Fin 3 → Int) (j : Nat) (hj : j ≤ 3)
    (hs : ∀ a, start a = (((![0, j, 0] : Fin 3 → Nat) a : Nat) : Int)) (b : Fin 8) (r : Fin 4096) (d : Fin 2048) :
    Host.dynamicSlice S8x4096x2048 X start sliceFits_S8x4099x2048_S8x4096x2048 (ix3 b r d)
      = X (ix3 b ⟨r.val + j, by have := r.isLt; omega⟩ d) := by
  have hoff : S8x4099x2048.Slices ![0, j, 0] S8x4096x2048 := ⟨rfl, fun a => match a with
    | ⟨0, _⟩ => by show 0 + 8 ≤ 8; omega
    | ⟨1, _⟩ => by show j + 4096 ≤ 4099; omega
    | ⟨2, _⟩ => by show 0 + 2048 ≤ 2048; omega⟩
  rw [Host.dynamicSlice_eq_extractStridedSlice S8x4096x2048 X start ![0, j, 0] sliceFits_S8x4099x2048_S8x4096x2048 hoff hs]
  exact slice3_axis1_apply j X hoff b r d ⟨r.val + j, by have := r.isLt; omega⟩ (Nat.add_comm _ _)

variable (x0 : (⟨S8x4096x2048, .f32⟩ : BufTy).Contents (Elt Ideal)) (x1 : (⟨S2048x4, .f32⟩ : BufTy).Contents (Elt Ideal))
  (x2 x3 : (⟨S2048, .f32⟩ : BufTy).Contents (Elt Ideal))

/-! ## The normalised array -/

/-- The quotient "row sum over 2048", read at any index of batch b and time r, is the mean of row (b, r): the sum
    starts from the word of +0.0, which adds nothing. -/
theorem mean_apply (b : Fin 8) (r : Fin 4096) (j : S8x4096x1.Idx) (hb : j 0 = b) (hr : j 1 = r) :
    val_main_v3 (F := Ideal) x0 j = rowMean (fun k => x0 (ix3 b r k)) := by
  subst hb hr
  rw [val_main_v3_apply, val_main_v1_apply, val_main_v0_apply, val_main_v2_apply, val_main_cst_apply,
    val_main_cst_0_apply]
  simp only [Ideal.hostDivf_def, Ideal.ofBits_def, Ideal.ofBits_zero_f32, zero_add]
  unfold rowMean
  refine congrArg (Ideal.div · _) (Finset.sum_congr rfl fun k _ => congrArg x0 (funext fun a => ?_))
  match a with
  | ⟨0, _⟩ => rfl
  | ⟨1, _⟩ => rfl
  | ⟨2, _⟩ => rfl

/-- The quotient "sum of squared deviations over 2048" is the variance of row (b, r). -/
theorem var_apply (b : Fin 8) (r : Fin 4096) (j : S8x4096x1.Idx) (hb : j 0 = b) (hr : j 1 = r) :
    val_main_v10 (F := Ideal) x0 j = rowVar (fun k => x0 (ix3 b r k)) := by
  subst hb hr
  rw [val_main_v10_apply, val_main_v8_apply, val_main_v7_apply, val_main_v9_apply, val_main_cst_1_apply,
    val_main_cst_2_apply]
  simp only [Ideal.hostDivf_def, Ideal.ofBits_def, Ideal.ofBits_zero_f32, zero_add]
  unfold rowVar
  refine congrArg (Ideal.div · _) (Finset.sum_congr rfl fun k _ => ?_)
  have hI : idx_main_v7 (idx_main_v8 j) k = ix3 (j 0) (j 1) k := funext fun a => by
    match a with
    | ⟨0, _⟩ => rfl
    | ⟨1, _⟩ => rfl
    | ⟨2, _⟩ => rfl
  rw [val_main_v6_apply, val_main_v5_apply, val_main_v4_apply,
    mean_apply x0 (j 0) (j 1) (idx_main_v4 (idx_main_v7 (idx_main_v8 j) k)) rfl rfl, hI]
  rfl

/-- The normalised, scaled and shifted array at (b, r, d) is the specification's. -/
theorem normed_apply (b : Fin 8) (r : Fin 4096) (d : Fin 2048) :
    val_main_v23 (F := Ideal) x0 x2 x3 (ix3 b r d) = normed x0 x2 x3 b r d := by
  have h2 : idx_main_v18 (idx_main_v19 (ix3 b r d)) = ix1 d := funext fun a => by
    match a with
    | ⟨0, _⟩ => rfl
  have h3 : idx_main_v21 (idx_main_v22 (ix3 b r d)) = ix1 d := funext fun a => by
    match a with
    | ⟨0, _⟩ => rfl
  rw [val_main_v23_apply, val_main_v20_apply, val_main_v17_apply, val_main_v12_apply, val_main_v11_apply,
    val_main_v16_apply, val_main_v15_apply, val_main_v14_apply, val_main_v13_apply, val_main_cst_3_apply,
    val_main_v19_apply, val_main_v18_apply, val_main_v22_apply, val_main_v21_apply, h2, h3,
    mean_apply x0 b r (idx_main_v11 (ix3 b r d)) rfl rfl, var_apply x0 b r (idx_main_v16 (ix3 b r d)) rfl rfl]
  simp only [Ideal.addf_def, Ideal.mulf_def, Ideal.subf_def, Ideal.hostUnary_rsqrt_def, Ideal.ofBits_def]
  rfl

/-! ## The padded array and the four blocks cut from it -/

/-- The padding value, the integer 0 converted to a float, is 0. -/
theorem padval : val_main_call0_v0 (F := Ideal) (Shape.Idx.first h_S_) = 0 := by
  rw [val_main_call0_v0_apply, val_main_c_apply]
  show ((((0#32 : BitVec 32).toInt : ℤ) : ℝ) : EReal) = 0
  simp

/-- The padded array at (b, q, d) is padded row q. -/
theorem padded_apply (b : Fin 8) (q : Fin 4099) (d : Fin 2048) :
    val_main_v24 (F := Ideal) x0 x2 x3 (ix3 b q d) = tap x0 x2 x3 b q.val d := by
  unfold val_main_v24 tap
  by_cases h : 3 ≤ q.val
  · rw [dif_pos ⟨h, q.isLt⟩]
    exact (pad_inside _ _ b q d h).trans (normed_apply x0 x2 x3 b _ d)
  · rw [dif_neg fun hh => h hh.1]
    exact (pad_outside _ _ b q d (by omega)).trans padval

/-- A block cut from the padded array at the start (0, j, 0) reads padded row r + j at row r. -/
theorem block_apply (start : Fin 3 → Int) (j : Nat) (hj : j ≤ 3)
    (hs : ∀ a, start a = (((![0, j, 0] : Fin 3 → Nat) a : Nat) : Int)) (b : Fin 8) (r : Fin 4096) (d : Fin 2048) :
    Host.dynamicSlice S8x4096x2048 (val_main_v24 (F := Ideal) x0 x2 x3) start sliceFits_S8x4099x2048_S8x4096x2048
      (ix3 b r d) = tap x0 x2 x3 b (r.val + j) d :=
  (dynSlice_apply _ start j hj hs b r d).trans (padded_apply x0 x2 x3 b ⟨r.val + j, by have := r.isLt; omega⟩ d)

theorem block0_apply (b : Fin 8) (r : Fin 4096) (d : Fin 2048) :
    val_main_v28 (F := Ideal) x0 x2 x3 (ix3 b r d) = tap x0 x2 x3 b (r.val + 0) d := by
  unfold val_main_v28
  refine block_apply x0 x2 x3 _ 0 (by omega) (fun a => ?_) b r d
  match a with
  | ⟨0, _⟩ => rfl
  | ⟨1, _⟩ => rfl
  | ⟨2, _⟩ => rfl

theorem block1_apply (b : Fin 8) (r : Fin 4096) (d : Fin 2048) :
    val_main_v35 (F := Ideal) x0 x2 x3 (ix3 b r d) = tap x0 x2 x3 b (r.val + 1) d := by
  unfold val_main_v35
  refine block_apply x0 x2 x3 _ 1 (by omega) (fun a => ?_) b r d
  match a with
  | ⟨0, _⟩ => rfl
  | ⟨1, _⟩ => rfl
  | ⟨2, _⟩ => rfl

theorem block2_apply (b : Fin 8) (r : Fin 4096) (d : Fin 2048) :
    val_main_v42 (F := Ideal) x0 x2 x3 (ix3 b r d) = tap x0 x2 x3 b (r.val + 2) d := by
  unfold val_main_v42
  refine block_apply x0 x2 x3 _ 2 (by omega) (fun a => ?_) b r d
  match a with
  | ⟨0, _⟩ => rfl
  | ⟨1, _⟩ => rfl
  | ⟨2, _⟩ => rfl

theorem block3_apply (b : Fin 8) (r : Fin 4096) (d : Fin 2048) :
    val_main_v49 (F := Ideal) x0 x2 x3 (ix3 b r d) = tap x0 x2 x3 b (r.val + 3) d := by
  unfold val_main_v49
  refine block_apply x0 x2 x3 _ 3 (by omega) (fun a => ?_) b r d
  match a with
  | ⟨0, _⟩ => rfl
  | ⟨1, _⟩ => rfl
  | ⟨2, _⟩ => rfl

/-! ## The columns of the tap table, copied along batch and time -/

theorem col0_apply (b : Fin 8) (r : Fin 4096) (d : Fin 2048) :
    val_main_v30 (F := Ideal) x1 (ix3 b r d) = x1 (ix2 d 0) := by
  rw [val_main_v30_apply, val_main_v29_apply, val_main_v27_apply, val_main_v26_apply]
  refine congrArg x1 (funext fun a => ?_)
  match a with
  | ⟨0, _⟩ => exact Fin.ext (Nat.div_one _)
  | ⟨1, _⟩ => exact Fin.ext rfl

theorem col1_apply (b : Fin 8) (r : Fin 4096) (d : Fin 2048) :
    val_main_v37 (F := Ideal) x1 (ix3 b r d) = x1 (ix2 d 1) := by
  rw [val_main_v37_apply, val_main_v36_apply, val_main_v34_apply, val_main_v33_apply]
  refine congrArg x1 (funext fun a => ?_)
  match a with
  | ⟨0, _⟩ => exact Fin.ext (Nat.div_one _)
  | ⟨1, _⟩ => exact Fin.ext rfl

theorem col2_apply (b : Fin 8) (r : Fin 4096) (d : Fin 2048) :
    val_main_v44 (F := Ideal) x1 (ix3 b r d) = x1 (ix2 d 2) := by
  rw [val_main_v44_apply, val_main_v43_apply, val_main_v41_apply, val_main_v40_apply]
  refine congrArg x1 (funext fun a => ?_)
  match a with
  | ⟨0, _⟩ => exact Fin.ext (Nat.div_one _)
  | ⟨1, _⟩ => exact Fin.ext rfl

theorem col3_apply (b : Fin 8) (r : Fin 4096) (d : Fin 2048) :
    val_main_v51 (F := Ideal) x1 (ix3 b r d) = x1 (ix2 d 3) := by
  rw [val_main_v51_apply, val_main_v50_apply, val_main_v48_apply, val_main_v47_apply]
  refine congrArg x1 (funext fun a => ?_)
  match a with
  | ⟨0, _⟩ => exact Fin.ext (Nat.div_one _)
  | ⟨1, _⟩ => exact Fin.ext rfl

/-! ## The convolution and the result -/

/-- The accumulated sum starts from the word of +0.0, so it is the four products added left to right. -/
theorem conv_apply (b : Fin 8) (r : Fin 4096) (d : Fin 2048) :
    val_main_v53 (F := Ideal) x0 x1 x2 x3 (ix3 b r d) = conv x0 x1 x2 x3 b r d := by
  rw [val_main_v53_apply, val_main_v46_apply, val_main_v39_apply, val_main_v32_apply, val_main_v25_apply,
    val_main_cst_4_apply, val_main_v31_apply, val_main_v38_apply, val_main_v45_apply, val_main_v52_apply,
    col0_apply, col1_apply, col2_apply, col3_apply, block0_apply, block1_apply, block2_apply, block3_apply]
  simp only [Ideal.addf_def, Ideal.mulf_def, Ideal.ofBits_def, Ideal.ofBits_zero_f32, zero_add]
  rfl

/-- The reference's result is G: the sum y times 1 / (1 + exp (-y)), the logistic function of y. -/
theorem ref_is_G : val_main_v60 (F := Ideal) x0 x1 x2 x3 = G x0 x1 x2 x3 := by
  funext i
  obtain ⟨b, r, d, rfl⟩ : ∃ b r d, i = ix3 b r d := ⟨i 0, i 1, i 2, eq_ix3 i⟩
  rw [G_apply, val_main_v60_apply, val_main_v59_apply, val_main_v58_apply, val_main_cst_18_apply,
    val_main_v57_apply, val_main_v56_apply, val_main_cst_17_apply, val_main_v55_apply, val_main_v54_apply,
    conv_apply]
  simp only [Ideal.mulf_def, Ideal.hostDivf_def, Ideal.addf_def, Ideal.hostUnary_exp_def, Ideal.hostNegf_def,
    Ideal.negf_def, Ideal.ofBits_def, Ideal.ofBits_one_f32]
  rfl

end Cert.ShortConv.Ref

end
-- ==== Proof.lean ====
/-
  The kernel normalises each row of the input over the channel axis, convolves the normalised rows
  along the time axis with four causal taps, and multiplies by the logistic, one block of 512 time
  steps per grid point, carrying the last rows of a block to the next one; the reference does the
  same on the whole array after padding the time axis with three zero rows. Both compute the
  function G of Proof/Spec.lean, index by index, with the same operations in the same order on the
  extended reals: the kernel's result array is G of its arguments (Proof/Blocks.lean, over the
  payload reads of Proof/Body.lean and the stored pieces of Proof/Pieces.lean), and the reference's
  result term is G of its arguments (Proof/RefValue.lean, over the reference's run and its stages read at an index,
  Proof/RefRun.lean and Proof/RefRead.lean). No law that needs finite entries is used,
  so the precondition is never opened. The kernel's idealization rewrote no operation.
-/
import proofs.«174624_j23570780520523_1_alg».proof.Defs
import proofs.«174624_j23570780520523_1_alg».proof.Proof.Gen.Kernel
import proofs.«174624_j23570780520523_1_alg».proof.Proof.Gen.Kernel.Skeleton
import proofs.«174624_j23570780520523_1_alg».proof.Proof.Gen.Kernel.Launch
import proofs.«174624_j23570780520523_1_alg».proof.Proof.Gen.Kernel.Points
import proofs.«174624_j23570780520523_1_alg».proof.Proof.Gen.Kernel.Frame
import proofs.«174624_j23570780520523_1_alg».proof.Proof.Gen.KernelIdeal
import proofs.«174624_j23570780520523_1_alg».proof.Proof.Gen.KernelIdeal.Skeleton
import proofs.«174624_j23570780520523_1_alg».proof.Proof.Gen.KernelIdeal.Launch
import proofs.«174624_j23570780520523_1_alg».proof.Proof.Gen.KernelIdeal.Points
import proofs.«174624_j23570780520523_1_alg».proof.Proof.Gen.KernelIdeal.Frame
import proofs.«174624_j23570780520523_1_alg».proof.Proof.Gen.ReferenceIdeal
import proofs.«174624_j23570780520523_1_alg».proof.Proof.Gen.Pre_finite_inputs
import proofs.«174624_j23570780520523_1_alg».proof.Proof.Gen.KernelIdeal.Value
import proofs.«174624_j23570780520523_1_alg».proof.Proof.RefRun
import proofs.«174624_j23570780520523_1_alg».proof.Proof.RefRead
import proofs.«174624_j23570780520523_1_alg».proof.Proof.Spec
import proofs.«174624_j23570780520523_1_alg».proof.Proof.Blocks
import proofs.«174624_j23570780520523_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with G of the (agreeing) argument arrays in their result arrays. -/
theorem algebraic : Cert.algebraic_KernelIdeal_ReferenceIdeal := by
  intro m ρ m' ρ' _ hagree
  refine ⟨fun c => Cert.ShortConv.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.ShortConv.Blocks.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v60_eq, Cert.ShortConv.Ref.ref_is_G,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
